-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x978 : Shape := ⟨2, ![8192, 978]⟩
abbrev S2x20000000 : Shape := ⟨2, ![2, 20000000]⟩
abbrev S1x1 : Shape := ⟨2, ![1, 1]⟩
abbrev S1 : Shape := ⟨1, ![1]⟩
abbrev S978x2048 : Shape := ⟨2, ![978, 2048]⟩
abbrev S2048 : Shape := ⟨1, ![2048]⟩
abbrev S2048x100 : Shape := ⟨2, ![2048, 100]⟩
abbrev S100 : Shape := ⟨1, ![100]⟩
abbrev S_ : Shape := ⟨0, ![]⟩

class Facts : Prop where
  bcast_S_S8192x978 : S_.BroadcastsInDim S8192x978 (![] : Fin 0 → Fin S8192x978.rank)
  reducesTo_S8192x978_S_d0_1 : S8192x978.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_
  bcast_S_S978x2048 : S_.BroadcastsInDim S978x2048 (![] : Fin 0 → Fin S978x2048.rank)
  reducesTo_S978x2048_S_d0_1 : S978x2048.ReducesTo [0, 1] S_
  bcast_S_S2048 : S_.BroadcastsInDim S2048 (![] : Fin 0 → Fin S2048.rank)
  reducesTo_S2048_S_d0 : S2048.ReducesTo [0] S_
  bcast_S_S2048x100 : S_.BroadcastsInDim S2048x100 (![] : Fin 0 → Fin S2048x100.rank)
  reducesTo_S2048x100_S_d0_1 : S2048x100.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg5 : FVec F S2048 .f32) (main_arg6 : FVec F S2048x100 .f32) (main_arg7 : FVec F S100 .f32) (main_v13 : IVec S_ 1) (main_v16 : IVec S978x2048 1) : IVec S_ 1 :=
  let main_c_5 : IVec S_ 1 := constantI S_ 1 1#1
  let main_v17 : IVec S_ 1 := (fun x v => Host.reduce IntOp.andi x v reducesTo_S978x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x100 .f32 := Host.absf main_arg6
  let main_cst_8 : FVec F S_ .f32 := constant S_ .f32 0x7F800000#32
  let main_v25 : FVec F S2048x100 .f32 := broadcastInDim S2048x100 ![] bcast_S_S2048x100 main_cst_8
  let main_v26 : IVec S2048x100 1 := cmpf .olt main_v24 main_v25
  let main_c_9 : IVec S_ 1 := constantI S_ 1 1#1
  let main_v27 : IVec S_ 1 := (fun x v => Host.reduce IntOp.andi x v reducesTo_S2048x100_S_d0_1 h_S_) main_v26 main_c_9
  let main_v28 : IVec S_ 1 := andi main_v23 main_v27
  let main_v29 : FVec F S100 .f32 := Host.absf main_arg7
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  main_v33

def fn {F : FTy → Type} [FloatOps F] (main_arg0 : FVec F S8192x978 .f32) (main_arg1 : IVec S2x20000000 32) (main_arg2 : FVec F S1x1 .f32) (main_arg3 : FVec F S1 .f32) (main_arg4 : FVec F S978x2048 .f32) (main_arg5 : FVec F S2048 .f32) (main_arg6 : FVec F S2048x100 .f32) (main_arg7 : FVec F S100 .f32) : IVec S_ 1 :=
  let main_v0 : FVec F S8192x978 .f32 := Host.absf main_arg0
  let main_cst : FVec F S_ .f32 := constant S_ .f32 0x7F800000#32
  let main_v1 : FVec F S8192x978 .f32 := broadcastInDim S8192x978 ![] bcast_S_S8192x978 main_cst
  let main_v2 : IVec S8192x978 1 := cmpf .olt main_v0 main_v1
  let main_c : IVec S_ 1 := constantI S_ 1 1#1
  let main_v3 : IVec S_ 1 := (fun x v => Host.reduce IntOp.andi x v reducesTo_S8192x978_S_d0_1 h_S_) main_v2 main_c
  let main_v4 : FVec F S1x1 .f32 := Host.absf main_arg2
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S978x2048 .f32 := Host.absf main_arg4
  let main_cst_4 : FVec F S_ .f32 := constant S_ .f32 0x7F800000#32
  let main_v15 : FVec F S978x2048 .f32 := broadcastInDim S978x2048 ![] bcast_S_S978x2048 main_cst_4
  let main_v16 : IVec S978x2048 1 := cmpf .olt main_v14 main_v15
  fn_part1 (F := F) main_arg5 main_arg6 main_arg7 main_v13 main_v16
-- ==== Kernel.lean ====
abbrev S8192x978 : Shape := ⟨2, ![8192, 978]⟩
abbrev S2x20000000 : Shape := ⟨2, ![2, 20000000]⟩
abbrev S1x1 : Shape := ⟨2, ![1, 1]⟩
abbrev S1 : Shape := ⟨1, ![1]⟩
abbrev S978x2048 : Shape := ⟨2, ![978, 2048]⟩
abbrev S2048 : Shape := ⟨1, ![2048]⟩
abbrev S2048x100 : Shape := ⟨2, ![2048, 100]⟩
abbrev S100 : Shape := ⟨1, ![100]⟩
abbrev S8011776 : Shape := ⟨1, ![8011776]⟩
abbrev S_ : Shape := ⟨0, ![]⟩
abbrev S1x20000000 : Shape := ⟨2, ![1, 20000000]⟩
abbrev S20000000 : Shape := ⟨1, ![20000000]⟩
abbrev S20000000x1 : Shape := ⟨2, ![20000000, 1]⟩
abbrev S1x2048 : Shape := ⟨2, ![1, 2048]⟩
abbrev S1x100 : Shape := ⟨2, ![1, 100]⟩
abbrev S8192x100 : Shape := ⟨2, ![8192, 100]⟩
abbrev S512x978 : Shape := ⟨2, ![512, 978]⟩
abbrev S512x100 : Shape := ⟨2, ![512, 100]⟩
abbrev S512x2048 : Shape := ⟨2, ![512, 2048]⟩

abbrev nBuf : Space → Nat
  | .hbm => 36
  | .vmem => 8
  | .smem => 0
  | _ => 0

abbrev bufTy : (tb : Table) → Fin (tcTables nBuf tb) → BufTy
  | .hbm, ⟨0, _⟩ => ⟨S8192x978, .f32⟩
  | .hbm, ⟨1, _⟩ => ⟨S2x20000000, .i32⟩
  | .hbm, ⟨2, _⟩ => ⟨S1x1, .f32⟩
  | .hbm, ⟨3, _⟩ => ⟨S1, .f32⟩
  | .hbm, ⟨4, _⟩ => ⟨S978x2048, .f32⟩
  | .hbm, ⟨5, _⟩ => ⟨S2048, .f32⟩
  | .hbm, ⟨6, _⟩ => ⟨S2048x100, .f32⟩
  | .hbm, ⟨7, _⟩ => ⟨S100, .f32⟩
  | .hbm, ⟨8, _⟩ => ⟨S8011776, .f32⟩
  | .hbm, ⟨9, _⟩ => ⟨S_, .f32⟩
  | .hbm, ⟨10, _⟩ => ⟨S8011776, .f32⟩
  | .hbm, ⟨11, _⟩ => ⟨S8011776, .f32⟩
  | .hbm, ⟨12, _⟩ => ⟨S1x20000000, .i32⟩
  | .hbm, ⟨13, _⟩ => ⟨S20000000, .i32⟩
  | .hbm, ⟨14, _⟩ => ⟨S1x20000000, .i32⟩
  | .hbm, ⟨15, _⟩ => ⟨S20000000, .i32⟩
  | .hbm, ⟨16, _⟩ => ⟨S_, .i32⟩
  | .hbm, ⟨17, _⟩ => ⟨S20000000, .i32⟩
  | .hbm, ⟨18, _⟩ => ⟨S20000000, .i1⟩
  | .hbm, ⟨19, _⟩ => ⟨S_, .i32⟩
  | .hbm, ⟨20, _⟩ => ⟨S20000000, .i32⟩
  | .hbm, ⟨21, _⟩ => ⟨S20000000, .i32⟩
  | .hbm, ⟨22, _⟩ => ⟨S20000000, .i32⟩
  | .hbm, ⟨23, _⟩ => ⟨S20000000x1, .i32⟩
  | .hbm, ⟨24, _⟩ => ⟨S20000000, .f32⟩
  | .hbm, ⟨25, _⟩ => ⟨S_, .f32⟩
  | .hbm, ⟨26, _⟩ => ⟨S8011776, .f32⟩
  | .hbm, ⟨27, _⟩ => ⟨S20000000x1, .i32⟩
  | .hbm, ⟨28, _⟩ => ⟨S8011776, .f32⟩
  | .hbm, ⟨29, _⟩ => ⟨S_, .f32⟩
  | .hbm, ⟨30, _⟩ => ⟨S8011776, .f32⟩
  | .hbm, ⟨31, _⟩ => ⟨S8011776, .f32⟩
  | .hbm, ⟨32, _⟩ => ⟨S8192x978, .f32⟩
  | .hbm, ⟨33, _⟩ => ⟨S1x2048, .f32⟩
  | .hbm, ⟨34, _⟩ => ⟨S1x100, .f32⟩
  | .hbm, ⟨35, _⟩ => ⟨S8192x100, .f32⟩
  | .local _ .vmem, ⟨0, _⟩ => ⟨S512x978, .f32⟩
  | .local _ .vmem, ⟨1, _⟩ => ⟨S512x978, .f32⟩
  | .local _ .vmem, ⟨2, _⟩ => ⟨S978x2048, .f32⟩
  | .local _ .vmem, ⟨3, _⟩ => ⟨S1x2048, .f32⟩
  | .local _ .vmem, ⟨4, _⟩ => ⟨S2048x100, .f32⟩
  | .local _ .vmem, ⟨5, _⟩ => ⟨S1x100, .f32⟩
  | .local _ .vmem, ⟨6, _⟩ => ⟨S512x100, .f32⟩
  | .local _ .vmem, ⟨7, _⟩ => ⟨S512x100, .f32⟩
  | _, _ => ⟨S8192x978, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x978 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S978x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192x978_S8011776 : S8192x978.ShapeCasts S8011776
  shapeCasts_S1x1_S_ : S1x1.ShapeCasts S_
  bcast_S_S8011776 : S_.BroadcastsInDim S8011776 (![] : Fin 0 → Fin S8011776.rank)
  slices_S2x20000000_S1x20000000_0_0 : S2x20000000.Slices ![0, 0] S1x20000000
  shapeCasts_S1x20000000_S20000000 : S1x20000000.ShapeCasts S20000000
  slices_S2x20000000_S1x20000000_1_0 : S2x20000000.Slices ![1, 0] S1x20000000
  bcast_S_S20000000 : S_.BroadcastsInDim S20000000 (![] : Fin 0 → Fin S20000000.rank)
  bcast_S20000000_S20000000x1_0 : S20000000.BroadcastsInDim S20000000x1 (![0] : Fin 1 → Fin S20000000x1.rank)
  shapeCasts_S1_S_ : S1.ShapeCasts S_
  shapeCasts_S8011776_S8192x978 : S8011776.ShapeCasts S8192x978
  shapeCasts_S2048_S1x2048 : S2048.ShapeCasts S1x2048
  shapeCasts_S100_S1x100 : S100.ShapeCasts S1x100
  inb_S512x978_S512x978_0_0 : ∀ a, (![0, 0] : Fin 2 → Nat) a + S512x978.size a ≤ S512x978.size a
  h_S512x978 : 0 < S512x978.numel
  shapeCasts_S512x978_S512x978 : S512x978.ShapeCasts S512x978
  bitsLt_bf16_f32 : FTy.bits .bf16 < FTy.bits .f32
  inb_S978x2048_S978x2048_0_0 : ∀ a, (![0, 0] : Fin 2 → Nat) a + S978x2048.size a ≤ S978x2048.size a
  h_S978x2048 : 0 < S978x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x100_S2048x100_0_0 : ∀ a, (![0, 0] : Fin 2 → Nat) a + S2048x100.size a ≤ S2048x100.size a
  h_S2048x100 : 0 < S2048x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S512x100 : S1x100.Broadcasts S512x100
  inb_S512x100_S512x100_0_0 : ∀ a, (![0, 0] : Fin 2 → Nat) a + S512x100.size a ≤ S512x100.size a
  h_S512x100 : 0 < S512x100.numel
  gather_S8011776_S20000000x1_S20000000_n_0_n_n_0_1_1_wf : GatherDims.WF S8011776 S20000000x1 S20000000 [] [0] [] [0] [] 1 ![1]
  scatter_S8011776_S20000000x1_S20000000_n_0_0_1_wf : ScatterDims.WF S8011776 S20000000x1 S20000000 [] [0] [0] 1
  dot_S512x978_S978x2048_S512x2048_1_0_0_1_n_n_wf : DotDims.WF S512x978 S978x2048 S512x2048 [1] [0] [0] [1] [] []
  dot_S512x2048_S2048x100_S512x100_1_0_0_1_n_n_wf : DotDims.WF S512x2048 S2048x100 S512x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x978.size a ≤ S8192x978.size a
  hwx0_0 : ∀ i : grid0.Coords, EltTy.bits .f32 = 32 ∨ (Rect.block (s := S8192x978) S512x978.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S978x2048.size a ≤ S978x2048.size a
  hwx0_1 : ∀ i : grid0.Coords, EltTy.bits .f32 = 32 ∨ (Rect.block (s := S978x2048) S978x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x100.size a ≤ S2048x100.size a
  hwx0_3 : ∀ i : grid0.Coords, EltTy.bits .f32 = 32 ∨ (Rect.block (s := S2048x100) S2048x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x100.size a ≤ S8192x100.size a
  hwx0_5 : ∀ i : grid0.Coords, EltTy.bits .f32 = 32 ∨ (Rect.block (s := S8192x100) S512x100.size (cc0_transform_5 i) (hinb0_5 i)).WholeWords (EltTy.packing .f32)

variable [Facts₀]

def gather_S8011776_S20000000x1_S20000000_n_0_n_n_0_1_1 : GatherDims S8011776 S20000000x1 S20000000 where
  offsetDims := []
  collapsedSliceDims := [0]
  operandBatchingDims := []
  startIndicesBatchingDims := []
  startIndexMap := [0]
  indexVectorDim := 1
  sliceSizes := ![1]
  wf := gather_S8011776_S20000000x1_S20000000_n_0_n_n_0_1_1_wf
def scatter_S8011776_S20000000x1_S20000000_n_0_0_1 : ScatterDims S8011776 S20000000x1 S20000000 where
  updateWindowDims := []
  insertedWindowDims := [0]
  scatterDimsToOperandDims := [0]
  indexVectorDim := 1
  wf := scatter_S8011776_S20000000x1_S20000000_n_0_0_1_wf
def dot_S512x978_S978x2048_S512x2048_1_0_0_1_n_n : DotDims S512x978 S978x2048 S512x2048 where
  lhsContracting := [1]
  rhsContracting := [0]
  lhsNonContracting := [0]
  rhsNonContracting := [1]
  lhsBatch := []
  rhsBatch := []
  wf := dot_S512x978_S978x2048_S512x2048_1_0_0_1_n_n_wf
def dot_S512x2048_S2048x100_S512x100_1_0_0_1_n_n : DotDims S512x2048 S2048x100 S512x100 where
  lhsContracting := [1]
  rhsContracting := [0]
  lhsNonContracting := [0]
  rhsNonContracting := [1]
  lhsBatch := []
  rhsBatch := []
  wf := dot_S512x2048_S2048x100_S512x100_1_0_0_1_n_n_wf

abbrev win0_0 : Pipeline.Window sig grid0 :=
  Pipeline.Window.ofSpec (Memref.whole main_v21) S512x978.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S978x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S2048x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x100.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x978 : Shape := ⟨2, ![8192, 978]⟩
abbrev S2x20000000 : Shape := ⟨2, ![2, 20000000]⟩
abbrev S1x1 : Shape := ⟨2, ![1, 1]⟩
abbrev S1 : Shape := ⟨1, ![1]⟩
abbrev S978x2048 : Shape := ⟨2, ![978, 2048]⟩
abbrev S2048 : Shape := ⟨1, ![2048]⟩
abbrev S2048x100 : Shape := ⟨2, ![2048, 100]⟩
abbrev S100 : Shape := ⟨1, ![100]⟩
abbrev S8011776 : Shape := ⟨1, ![8011776]⟩
abbrev S_ : Shape := ⟨0, ![]⟩
abbrev S1x20000000 : Shape := ⟨2, ![1, 20000000]⟩
abbrev S20000000 : Shape := ⟨1, ![20000000]⟩
abbrev S20000000x1 : Shape := ⟨2, ![20000000, 1]⟩
abbrev S8192x2048 : Shape := ⟨2, ![8192, 2048]⟩
abbrev S1x2048 : Shape := ⟨2, ![1, 2048]⟩
abbrev S8192x100 : Shape := ⟨2, ![8192, 100]⟩
abbrev S1x100 : Shape := ⟨2, ![1, 100]⟩

abbrev nBuf : Space → Nat
  | .hbm => 47
  | .vmem => 0
  | .smem => 0
  | _ => 0

abbrev bufTy : (tb : Table) → Fin (tcTables nBuf tb) → BufTy
  | .hbm, ⟨0, _⟩ => ⟨S8192x978, .f32⟩
  | .hbm, ⟨1, _⟩ => ⟨S2x20000000, .i32⟩
  | .hbm, ⟨2, _⟩ => ⟨S1x1, .f32⟩
  | .hbm, ⟨3, _⟩ => ⟨S1, .f32⟩
  | .hbm, ⟨4, _⟩ => ⟨S978x2048, .f32⟩
  | .hbm, ⟨5, _⟩ => ⟨S2048, .f32⟩
  | .hbm, ⟨6, _⟩ => ⟨S2048x100, .f32⟩
  | .hbm, ⟨7, _⟩ => ⟨S100, .f32⟩
  | .hbm, ⟨8, _⟩ => ⟨S8011776, .f32⟩
  | .hbm, ⟨9, _⟩ => ⟨S_, .f32⟩
  | .hbm, ⟨10, _⟩ => ⟨S8011776, .f32⟩
  | .hbm, ⟨11, _⟩ => ⟨S8011776, .f32⟩
  | .hbm, ⟨12, _⟩ => ⟨S1x20000000, .i32⟩
  | .hbm, ⟨13, _⟩ => ⟨S20000000, .i32⟩
  | .hbm, ⟨14, _⟩ => ⟨S1x20000000, .i32⟩
  | .hbm, ⟨15, _⟩ => ⟨S20000000, .i32⟩
  | .hbm, ⟨16, _⟩ => ⟨S_, .i32⟩
  | .hbm, ⟨17, _⟩ => ⟨S20000000, .i32⟩
  | .hbm, ⟨18, _⟩ => ⟨S20000000, .i1⟩
  | .hbm, ⟨19, _⟩ => ⟨S_, .i32⟩
  | .hbm, ⟨20, _⟩ => ⟨S20000000, .i32⟩
  | .hbm, ⟨21, _⟩ => ⟨S20000000, .i32⟩
  | .hbm, ⟨22, _⟩ => ⟨S20000000, .i32⟩
  | .hbm, ⟨23, _⟩ => ⟨S20000000x1, .i32⟩
  | .hbm, ⟨24, _⟩ => ⟨S20000000, .f32⟩
  | .hbm, ⟨25, _⟩ => ⟨S_, .f32⟩
  | .hbm, ⟨26, _⟩ => ⟨S8011776, .f32⟩
  | .hbm, ⟨27, _⟩ => ⟨S20000000x1, .i32⟩
  | .hbm, ⟨28, _⟩ => ⟨S8011776, .f32⟩
  | .hbm, ⟨29, _⟩ => ⟨S_, .f32⟩
  | .hbm, ⟨30, _⟩ => ⟨S8011776, .f32⟩
  | .hbm, ⟨31, _⟩ => ⟨S8011776, .f32⟩
  | .hbm, ⟨32, _⟩ => ⟨S8192x978, .f32⟩
  | .hbm, ⟨33, _⟩ => ⟨S_, .f32⟩
  | .hbm, ⟨34, _⟩ => ⟨S8192x978, .f32⟩
  | .hbm, ⟨35, _⟩ => ⟨S8192x978, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x100, .f32⟩
  | .hbm, ⟨44, _⟩ => ⟨S1x100, .f32⟩
  | .hbm, ⟨45, _⟩ => ⟨S8192x100, .f32⟩
  | .hbm, ⟨46, _⟩ => ⟨S8192x100, .f32⟩
  | _, _ => ⟨S8192x978, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  shapeCasts_S8192x978_S8011776 : S8192x978.ShapeCasts S8011776
  shapeCasts_S1x1_S_ : S1x1.ShapeCasts S_
  bcast_S_S8011776 : S_.BroadcastsInDim S8011776 (![] : Fin 0 → Fin S8011776.rank)
  slices_S2x20000000_S1x20000000_0_0 : S2x20000000.Slices ![0, 0] S1x20000000
  shapeCasts_S1x20000000_S20000000 : S1x20000000.ShapeCasts S20000000
  slices_S2x20000000_S1x20000000_1_0 : S2x20000000.Slices ![1, 0] S1x20000000
  bcast_S_S20000000 : S_.BroadcastsInDim S20000000 (![] : Fin 0 → Fin S20000000.rank)
  bcast_S20000000_S20000000x1_0 : S20000000.BroadcastsInDim S20000000x1 (![0] : Fin 1 → Fin S20000000x1.rank)
  shapeCasts_S1_S_ : S1.ShapeCasts S_
  shapeCasts_S8011776_S8192x978 : S8011776.ShapeCasts S8192x978
  bcast_S_S8192x978 : S_.BroadcastsInDim S8192x978 (![] : Fin 0 → Fin S8192x978.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S100_S1x100_1 : S100.BroadcastsInDim S1x100 (![1] : Fin 1 → Fin S1x100.rank)
  bcast_S1x100_S8192x100_0_1 : S1x100.BroadcastsInDim S8192x100 (![0, 1] : Fin 2 → Fin S8192x100.rank)
  gather_S8011776_S20000000x1_S20000000_n_0_n_n_0_1_1_wf : GatherDims.WF S8011776 S20000000x1 S20000000 [] [0] [] [0] [] 1 ![1]
  scatter_S8011776_S20000000x1_S20000000_n_0_0_1_wf : ScatterDims.WF S8011776 S20000000x1 S20000000 [] [0] [0] 1
  dot_S8192x978_S978x2048_S8192x2048_1_0_0_1_n_n_wf : DotDims.WF S8192x978 S978x2048 S8192x2048 [1] [0] [0] [1] [] []
  dot_S8192x2048_S2048x100_S8192x100_1_0_0_1_n_n_wf : DotDims.WF S8192x2048 S2048x100 S8192x100 [1] [0] [0] [1] [] []

variable [Facts₀]

def gather_S8011776_S20000000x1_S20000000_n_0_n_n_0_1_1 : GatherDims S8011776 S20000000x1 S20000000 where
  offsetDims := []
  collapsedSliceDims := [0]
  operandBatchingDims := []
  startIndicesBatchingDims := []
  startIndexMap := [0]
  indexVectorDim := 1
  sliceSizes := ![1]
  wf := gather_S8011776_S20000000x1_S20000000_n_0_n_n_0_1_1_wf
def scatter_S8011776_S20000000x1_S20000000_n_0_0_1 : ScatterDims S8011776 S20000000x1 S20000000 where
  updateWindowDims := []
  insertedWindowDims := [0]
  scatterDimsToOperandDims := [0]
  indexVectorDim := 1
  wf := scatter_S8011776_S20000000x1_S20000000_n_0_0_1_wf
def dot_S8192x978_S978x2048_S8192x2048_1_0_0_1_n_n : DotDims S8192x978 S978x2048 S8192x2048 where
  lhsContracting := [1]
  rhsContracting := [0]
  lhsNonContracting := [0]
  rhsNonContracting := [1]
  lhsBatch := []
  rhsBatch := []
  wf := dot_S8192x978_S978x2048_S8192x2048_1_0_0_1_n_n_wf
def dot_S8192x2048_S2048x100_S8192x100_1_0_0_1_n_n : DotDims S8192x2048 S2048x100 S8192x100 where
  lhsContracting := [1]
  rhsContracting := [0]
  lhsNonContracting := [0]
  rhsNonContracting := [1]
  lhsBatch := []
  rhsBatch := []
  wf := dot_S8192x2048_S2048x100_S8192x100_1_0_0_1_n_n_wf

class Facts : Prop extends Facts₀ where

variable [Facts]
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«157845_j22591527977028_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.MlpSpec.lean ====
/-
  The function both programs compute from the aggregated node values.

  `h` is the [R, 978] array of aggregated node scalars (one row per sample), `W1`, `b1`, `W2`, `b2` the two dense
  layers. Row `r` of the result is

      out r c = (∑ k, relu ((∑ j, relu (h r j) * W1 j k) + b1 k) * W2 k c) + b2 c

  on the extended reals, with `relu x = max x 0` and `0` kept as the word of the float literal `0.0` (the same word on
  both sides, never evaluated). Nothing here depends on the number of rows: the kernel's block of 512 rows and the
  reference's 8192 rows are instances of the same definition, and a row of the result depends only on the same row of
  `h` (`outAt_congr`).
-/
import proofs.«157845_j22591527977028_1_alg».proof.Proof.LibPlainDotAny
import Idealize.ShloMosaic.Lib.Pipeline.Value

noncomputable section

open scoped BigOperators

namespace Cert.Mlp

open Idealize.ShloMosaic Idealize.ShloMosaic.ValueIdx

/-- The float literal `0.0` read at the ideal instance. -/
abbrev zero : Ideal .f32 := Ideal.ofBits .f32 0x00000000#32

/-- The hidden layer at row `r`, unit `k`: `relu ((∑ j, relu (h r j) * W1 j k) + b1 k)`. -/
def hidden {R : Nat} (h : FVec Ideal ⟨2, ![R, 978]⟩ .f32) (W1 : FVec Ideal ⟨2, ![978, 2048]⟩ .f32) (b1 : Fin 2048 → Ideal .f32)
    (r : Fin R) (k : Fin 2048) : Ideal .f32 :=
  max ((∑ j : Fin 978, max (h (ix2 r j)) zero * W1 (ix2 j k)) + b1 k) zero

/-- The output layer at row `r`, column `c`: `(∑ k, hidden r k * W2 k c) + b2 c`. -/
def outAt {R : Nat} (h : FVec Ideal ⟨2, ![R, 978]⟩ .f32) (W1 : FVec Ideal ⟨2, ![978, 2048]⟩ .f32) (b1 : Fin 2048 → Ideal .f32)
    (W2 : FVec Ideal ⟨2, ![2048, 100]⟩ .f32) (b2 : Fin 100 → Ideal .f32) (r : Fin R) (c : Fin 100) : Ideal .f32 :=
  (∑ k : Fin 2048, hidden h W1 b1 r k * W2 (ix2 k c)) + b2 c

/-- The whole [R, 100] result. -/
def out {R : Nat} (h : FVec Ideal ⟨2, ![R, 978]⟩ .f32) (W1 : FVec Ideal ⟨2, ![978, 2048]⟩ .f32) (b1 : Fin 2048 → Ideal .f32)
    (W2 : FVec Ideal ⟨2, ![2048, 100]⟩ .f32) (b2 : Fin 100 → Ideal .f32) : FVec Ideal ⟨2, ![R, 100]⟩ .f32 :=
  fun i => outAt h W1 b1 W2 b2 (i 0) (i 1)

/-- The result at an entry depends only on that row of `h`, on the weights and on the biases: two sets of arrays that
    agree there give the same entry. (A block of rows of `h` together with the whole weights is such a second set.) -/
theorem outAt_congr {R R' : Nat} (h : FVec Ideal ⟨2, ![R, 978]⟩ .f32) (h' : FVec Ideal ⟨2, ![R', 978]⟩ .f32)
    (W1 W1' : FVec Ideal ⟨2, ![978, 2048]⟩ .f32) (b1 b1' : Fin 2048 → Ideal .f32) (W2 W2' : FVec Ideal ⟨2, ![2048, 100]⟩ .f32)
    (b2 b2' : Fin 100 → Ideal .f32) (r : Fin R) (p : Fin R') (q q' : Fin 100)
    (hrow : ∀ j : Fin 978, h' (ix2 p j) = h (ix2 r j)) (hW1 : ∀ (j : Fin 978) (k : Fin 2048), W1' (ix2 j k) = W1 (ix2 j k))
    (hb1 : ∀ k, b1' k = b1 k) (hW2 : ∀ (k : Fin 2048) (c : Fin 100), W2' (ix2 k c) = W2 (ix2 k c)) (hb2 : ∀ c, b2' c = b2 c)
    (hq : q' = q) :
    outAt h' W1' b1' W2' b2' p q' = outAt h W1 b1 W2 b2 r q := by
  subst hq
  unfold outAt hidden
  simp only [hrow, hW1, hb1, hW2, hb2]

end Cert.Mlp

end
-- ==== Proof.KernelBlock.lean ====
/-
  One grid point of the kernel, read at an entry.

  The body loads a block of 512 rows of the aggregated node values and the whole of both layers' weights and bias
  rows, and stores one [512, 100] block. At the ideal instance the narrowing of the matrix unit's operands to bf16 is
  the identity and a product into a zero accumulator is the plain sum over the shared axis, so the stored value at
  (p, q) is the two-layer function `Mlp.outAt` of the loaded blocks at row `p`, column `q`; the bias rows are
  [1, n] arrays read at their one row.
-/
import proofs.«157845_j22591527977028_1_alg».proof.Proof.Gen.KernelIdeal.Skeleton
import proofs.«157845_j22591527977028_1_alg».proof.Proof.MlpSpec
import Idealize.ShloMosaic.Lib.ValueLayout

noncomputable section

open scoped BigOperators

namespace Cert.KernelIdeal.Block

open Cert.KernelIdeal Cert.KernelIdeal.Gen Idealize.ShloMosaic Idealize.ShloMosaic.ValueIdx

/-- The stored block at (p, q): the hidden layer of row `p` of the loaded rows, through the second layer, at column `q`. -/
theorem pay_apply (x0 : Vec Ideal S512x978 .f32) (x1 : Vec Ideal S978x2048 .f32) (x2 : Vec Ideal S1x2048 .f32)
    (x3 : Vec Ideal S2048x100 .f32) (x4 : Vec Ideal S1x100 .f32) (p : Fin 512) (q : Fin 100) :
    k0_pay1 (F := Ideal) x0 x1 x2 x3 x4 (ix2 p q)
      = Mlp.outAt x0 x1 (fun k => x2 (ix2 (0 : Fin 1) k)) x3 (fun c => x4 (ix2 (0 : Fin 1) c)) p q := by
  unfold k0_pay1 Mlp.outAt Mlp.hidden
  dsimp only
  simp only [shapeCast_self]
  rw [addf_apply]
  refine congrArg₂ (· + ·) ?_ (broadcastTo_1b_ab_apply x4 _ p q)
  refine (PlainDot.matmul_zero_apply_any 512 2048 100 none _ _ (ix2 p q)).trans ?_
  refine Finset.sum_congr rfl fun k _ => ?_
  refine congrArg (· * x3 (ix2 k q)) ?_
  show max (_ + _) Mlp.zero = _
  refine congrArg (max · Mlp.zero) ?_
  refine congrArg₂ (· + ·) ?_ (broadcastTo_1b_ab_apply x2 _ p k)
  refine (PlainDot.matmul_zero_apply_any 512 978 2048 none _ _ (ix2 p k)).trans ?_
  rfl

end Cert.KernelIdeal.Block

end
-- ==== Proof.KernelArray.lean ====
/-
  From the blocks to the whole output array.

  Grid point `t` reads rows 512·t … 512·t + 511 of the aggregated node values (window 0) and the whole of the weights and
  bias rows (windows 1 to 4, always block (0, 0)), and writes back rows 512·t … 512·t + 511 of the output (window 5).
  A row of the two-layer function depends only on the same row of its first argument, so what point `t` writes back is
  block `t` of ONE whole-array function of the five staged arrays (`whole`). This is proved for arbitrary contents of the
  five arrays (`point_eq`) and only then read at the arrays the region finds. The sixteen blocks tile the [8192, 100]
  array (row `r` is in block `r / 512`), so after the run the output array is `result`.
-/
import proofs.«157845_j22591527977028_1_alg».proof.Proof.Gen.KernelIdeal.Value
import proofs.«157845_j22591527977028_1_alg».proof.Proof.KernelBlock

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-! ## The whole-array function, for any contents of the five staged arrays -/

/-- The two-layer function of the rows array `A0`, the weights `A1`, `A3` and the bias rows `A2`, `A4` (each a
    [1, n] array, read at its one row). -/
def whole (A0 : Vec Ideal S8192x978 .f32) (A1 : Vec Ideal S978x2048 .f32) (A2 : Vec Ideal S1x2048 .f32)
    (A3 : Vec Ideal S2048x100 .f32) (A4 : Vec Ideal S1x100 .f32) : Vec Ideal S8192x100 .f32 :=
  Mlp.out A0 A1 (fun k => A2 (ix2 (0 : Fin 1) k)) A3 (fun q => A4 (ix2 (0 : Fin 1) q))

/-- `whole` at an index, by its coordinates. -/
theorem whole_apply (A0 : Vec Ideal S8192x978 .f32) (A1 : Vec Ideal S978x2048 .f32) (A2 : Vec Ideal S1x2048 .f32)
    (A3 : Vec Ideal S2048x100 .f32) (A4 : Vec Ideal S1x100 .f32) (i : S8192x100.Idx) :
    whole A0 A1 A2 A3 A4 i
      = Mlp.outAt A0 A1 (fun k => A2 (ix2 (0 : Fin 1) k)) A3 (fun q => A4 (ix2 (0 : Fin 1) q)) (i 0) (i 1) := rfl

/-- `whole` respects equality of its arguments. -/
theorem whole_congr {A0 A0' : Vec Ideal S8192x978 .f32} {A1 A1' : Vec Ideal S978x2048 .f32} {A2 A2' : Vec Ideal S1x2048 .f32}
    {A3 A3' : Vec Ideal S2048x100 .f32} {A4 A4' : Vec Ideal S1x100 .f32} (h0 : A0 = A0') (h1 : A1 = A1') (h2 : A2 = A2')
    (h3 : A3 = A3') (h4 : A4 = A4') : whole A0 A1 A2 A3 A4 = whole A0' A1' A2' A3' A4' := by
  subst h0 h1 h2 h3 h4; rfl

/-- With the bias rows two vectors recast as [1, n] rows, `whole` is the two-layer function of the vectors. -/
theorem whole_rows (A0 : Vec Ideal S8192x978 .f32) (A1 : Vec Ideal S978x2048 .f32) (b1 : Vec Ideal S2048 .f32)
    (A3 : Vec Ideal S2048x100 .f32) (b2 : Vec Ideal S100 .f32) (h1 : S2048.ShapeCasts S1x2048) (h2 : S100.ShapeCasts S1x100) :
    whole A0 A1 (shapeCast S1x2048 b1 h1) A3 (shapeCast S1x100 b2 h2)
      = Mlp.out A0 A1 (fun k => b1 (ix1 k)) A3 (fun q => b2 (ix1 q)) := by
  unfold whole
  have e1 : (fun k : Fin 2048 => shapeCast S1x2048 b1 h1 (ix2 (0 : Fin 1) k)) = fun k => b1 (ix1 k) :=
    funext fun k => shapeCast_a_1a_apply b1 h1 (0 : Fin 1) k
  have e2 : (fun q : Fin 100 => shapeCast S1x100 b2 h2 (ix2 (0 : Fin 1) q)) = fun q => b2 (ix1 q) :=
    funext fun q => shapeCast_a_1a_apply b2 h2 (0 : Fin 1) q
  rw [e1, e2]

theorem hz : (![0, 0] : Fin 2 → Nat) = fun _ => 0 := funext fun a => by fin_cases a <;> rfl

/-- The printed index maps over the sixteen points: the rows window moves with the output window, every other window
    stays at block (0, 0), and the output's block row is below 16. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 15 :=
  (by decide +kernel : ∀ t : Fin grid0.N, _)

/-- Every block row is some point's. -/
theorem idx_onto : ∀ q0 : Fin 16, ∃ t : Fin cfg0.N, win0_5.index t = ![q0.val, 0] :=
  (by decide +kernel : ∀ q0 : Fin 16, ∃ t : Fin grid0.N, win0_5.index t = ![q0.val, 0])

/-- The output's write-back is uncut: the written part of a block's contents `X` is `X`, so it is block `t` of an array
    `Y` as soon as `X` agrees with `Y` through the block's embedding, entry by entry. -/
theorem cut_eq_read (c : Dev nD) (t : Fin cfg0.N) (X : Vec Ideal S512x100 .f32) (Y : Vec Ideal S8192x100 .f32)
    (h : ∀ (p : Fin 512) (q : Fin 100), X (ix2 p q) = Y (((cfg0.win 5).blk t).view.emb (ix2 p q))) :
    (cfg0.win 5).cut (grid0.coords t) X = ((cfg0.win 5).blk t).view.read (Elt Ideal) Y := by
  funext j
  obtain ⟨p, q, rfl⟩ : ∃ (p : Fin 512) (q : Fin 100), j = ix2 p q := ⟨j 0, j 1, eq_ix2 j⟩
  exact h p q

/-- The body's result over the five windows' blocks at point `t`, written back, is block `t` of `whole`: whatever the
    five arrays hold. -/
theorem point_eq (c : Dev nD) (t : Fin cfg0.N) (A0 : Vec Ideal S8192x978 .f32) (A1 : Vec Ideal S978x2048 .f32)
    (A2 : Vec Ideal S1x2048 .f32) (A3 : Vec Ideal S2048x100 .f32) (A4 : Vec Ideal S1x100 .f32) :
    (cfg0.win 5).cut (grid0.coords t)
        (out0_5 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (whole A0 A1 A2 A3 A4) := by
  unfold out0_5
  rw [View.canon_unit_zero hz]
  simp only [View.ld_unit_zero (S := S512x978) hz, View.ld_unit_zero (S := S978x2048) hz, View.ld_unit_zero (S := S1x2048) hz,
    View.ld_unit_zero (S := S2048x100) hz, View.ld_unit_zero (S := S1x100) hz]
  obtain ⟨e00, e01, e10, e11, e20, e21, e30, e31, e40, e41, e51, e50⟩ := idx_facts t
  refine cut_eq_read c t _ _ fun p q => ?_
  rw [whole_apply]
  refine (Block.pay_apply (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) p q).trans ?_
  refine Mlp.outAt_congr (R := 8192) (R' := 512) A0 (((cfg0.win 0).blk t).view.read (Elt Ideal) A0)
    A1 (((cfg0.win 1).blk t).view.read (Elt Ideal) A1)
    (fun k => A2 (ix2 (0 : Fin 1) k)) (fun k => ((cfg0.win 2).blk t).view.read (Elt Ideal) A2 (ix2 (0 : Fin 1) k))
    A3 (((cfg0.win 3).blk t).view.read (Elt Ideal) A3)
    (fun q => A4 (ix2 (0 : Fin 1) q)) (fun q => ((cfg0.win 4).blk t).view.read (Elt Ideal) A4 (ix2 (0 : Fin 1) q))
    _ p _ q ?_ ?_ ?_ ?_ ?_ ?_
  · intro j
    show A0 (((cfg0.win 0).blk t).view.emb (ix2 p j)) = A0 (ix2 ((((cfg0.win 5).blk t).view.emb (ix2 p q)) 0) j)
    refine congrArg A0 (funext fun a => Fin.ext ?_)
    match a with
    | ⟨0, _⟩ => show win0_0.index t (0 : Fin 2) * 512 + 1 * p.val = win0_5.index t (0 : Fin 2) * 512 + 1 * p.val; rw [e00]
    | ⟨1, _⟩ => show win0_0.index t (1 : Fin 2) * 978 + 1 * j.val = j.val; rw [e01]; omega
  · intro j k
    show A1 (((cfg0.win 1).blk t).view.emb (ix2 j k)) = A1 (ix2 j k)
    refine congrArg A1 (funext fun a => Fin.ext ?_)
    match a with
    | ⟨0, _⟩ => show win0_1.index t (0 : Fin 2) * 978 + 1 * j.val = j.val; rw [e10]; omega
    | ⟨1, _⟩ => show win0_1.index t (1 : Fin 2) * 2048 + 1 * k.val = k.val; rw [e11]; omega
  · intro k
    show A2 (((cfg0.win 2).blk t).view.emb (ix2 (0 : Fin 1) k)) = A2 (ix2 (0 : Fin 1) k)
    refine congrArg A2 (funext fun a => Fin.ext ?_)
    match a with
    | ⟨0, _⟩ => show win0_2.index t (0 : Fin 2) * 1 + 1 * 0 = 0; rw [e20]
    | ⟨1, _⟩ => show win0_2.index t (1 : Fin 2) * 2048 + 1 * k.val = k.val; rw [e21]; omega
  · intro k q'
    show A3 (((cfg0.win 3).blk t).view.emb (ix2 k q')) = A3 (ix2 k q')
    refine congrArg A3 (funext fun a => Fin.ext ?_)
    match a with
    | ⟨0, _⟩ => show win0_3.index t (0 : Fin 2) * 2048 + 1 * k.val = k.val; rw [e30]; omega
    | ⟨1, _⟩ => show win0_3.index t (1 : Fin 2) * 100 + 1 * q'.val = q'.val; rw [e31]; omega
  · intro q'
    show A4 (((cfg0.win 4).blk t).view.emb (ix2 (0 : Fin 1) q')) = A4 (ix2 (0 : Fin 1) q')
    refine congrArg A4 (funext fun a => Fin.ext ?_)
    match a with
    | ⟨0, _⟩ => show win0_4.index t (0 : Fin 2) * 1 + 1 * 0 = 0; rw [e40]
    | ⟨1, _⟩ => show win0_4.index t (1 : Fin 2) * 100 + 1 * q'.val = q'.val; rw [e41]; omega
  · apply Fin.ext
    show q.val = win0_5.index t (1 : Fin 2) * 100 + 1 * q.val
    rw [e51]; omega

/-- An index of the array is in point `t`'s block iff each coordinate is in the block's range on its axis. -/
theorem mem_blk (t : Fin cfg0.N) (i : S8192x100.Idx) :
    i ∈ ((cfg0.win 5).blk t).view.set ↔ ∀ a : Fin 2, win0_5.index t a * S512x100.size a ≤ (i a).val ∧ (i a).val < win0_5.index t a * S512x100.size a + S512x100.size a := by
  show i ∈ ((View.whole main_v24).slice (win0_5.rect t)).set ↔ _
  rw [View.set_slice_whole, Rect.mem_set_unit]
  exact Iff.rfl

/-- The sixteen blocks cover the array: row `r` is in the block of point `r / 512`. -/
theorem cover (i : S8192x100.Idx) : ∃ t : Fin cfg0.N, (cfg0.win 5).flush t = true ∧ i ∈ ((cfg0.win 5).blk t).view.set := by
  have hi0 : (i 0).val < 8192 := (i 0).isLt
  have hi1 : (i 1).val < 100 := (i 1).isLt
  obtain ⟨t, ht⟩ := idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 100 ≤ (i 1).val ∧ (i 1).val < win0_5.index t (1 : Fin 2) * 100 + 100; omega

/-! ## At the arrays the region finds -/

variable (m : (ℓ : Loc nD τ sig) → Buf (Elt Ideal) ℓ) (ρ : Dev nD → PrngReg)

/-- The arrays the five input windows stage, as the region finds them. They are named and kept closed: the first is
    the result of the host's gather and scatter-add and is never computed with. -/
def arr0 (c : Dev nD) : Vec Ideal S8192x978 .f32 := V m c (Pipeline.arrRef spec0 0)
def arr1 (c : Dev nD) : Vec Ideal S978x2048 .f32 := V m c (Pipeline.arrRef spec0 1)
def arr2 (c : Dev nD) : Vec Ideal S1x2048 .f32 := V m c (Pipeline.arrRef spec0 2)
def arr3 (c : Dev nD) : Vec Ideal S2048x100 .f32 := V m c (Pipeline.arrRef spec0 3)
def arr4 (c : Dev nD) : Vec Ideal S1x100 .f32 := V m c (Pipeline.arrRef spec0 4)

/-- The whole output. -/
def result (c : Dev nD) : Vec Ideal S8192x100 .f32 := whole (arr0 m c) (arr1 m c) (arr2 m c) (arr3 m c) (arr4 m c)

/-- What point `t` writes back is block `t` of `result`. -/
theorem flushed_eq (c : Dev nD) (t : Fin cfg0.N) :
    (dats m 0 c).flushed 5 t = ((cfg0.win 5).blk t).view.read (Elt Ideal) (result m c) := by
  rw [Value.flushed5]
  exact point_eq c t (arr0 m c) (arr1 m c) (arr2 m c) (arr3 m c) (arr4 m c)

/-- After the run the output array is `result`. -/
theorem final (c : Dev nD) : (dats m 0 c).arrAt 5 cfg0.N = result m c :=
  (dats m 0 c).arrAt_eq_of_cover 5 (result m c) (fun t _ => flushed_eq m c t) cover

/-- The kernel's run: the output array ends at `result`, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefValue.lean ====
/-
  The reference, read from the aggregated node values on.

  After the scatter-add and the bias the reference reshapes the node scalars to [8192, 978] (the stage `val_main_v21`)
  and then applies relu, the first dense layer with its bias broadcast down the rows, relu, and the second dense layer
  with its bias. Read at an entry (r, q), with the host's products as plain sums over the shared axis, this is the
  two-layer function `Mlp.out` of that array, the weights and the two bias vectors. The stages before the reshape are
  left closed: the kernel's host code computes the same array by the same operations.
-/
import proofs.«157845_j22591527977028_1_alg».proof.Proof.Gen.ReferenceIdeal.Read
import proofs.«157845_j22591527977028_1_alg».proof.Proof.MlpSpec

noncomputable section

open scoped BigOperators

namespace Cert.ReferenceIdeal.RefValue

open Cert.ReferenceIdeal Cert.ReferenceIdeal.Read Idealize.ShloMosaic Idealize.ShloMosaic.ValueIdx

/-! The generated index maps at coordinates. -/

theorem lidx28 (r : Fin 8192) (q : Fin 100) (k : Fin 2048) : lidx_main_v28 (ix2 r q) k = ix2 r k :=
  funext fun a => Fin.ext (by match a with | ⟨0, _⟩ => rfl | ⟨1, _⟩ => rfl)
theorem ridx28 (r : Fin 8192) (q : Fin 100) (k : Fin 2048) : ridx_main_v28 (ix2 r q) k = ix2 k q :=
  funext fun a => Fin.ext (by match a with | ⟨0, _⟩ => rfl | ⟨1, _⟩ => rfl)
theorem lidx23 (r : Fin 8192) (k : Fin 2048) (j : Fin 978) : lidx_main_v23 (ix2 r k) j = ix2 r j :=
  funext fun a => Fin.ext (by match a with | ⟨0, _⟩ => rfl | ⟨1, _⟩ => rfl)
theorem ridx23 (r : Fin 8192) (k : Fin 2048) (j : Fin 978) : ridx_main_v23 (ix2 r k) j = ix2 j k :=
  funext fun a => Fin.ext (by match a with | ⟨0, _⟩ => rfl | ⟨1, _⟩ => rfl)
theorem idx25_24 (r : Fin 8192) (k : Fin 2048) : idx_main_v24 (idx_main_v25 (ix2 r k)) = ix1 k :=
  funext fun a => Fin.ext (by match a with | ⟨0, _⟩ => rfl)
theorem idx30_29 (r : Fin 8192) (q : Fin 100) : idx_main_v29 (idx_main_v30 (ix2 r q)) = ix1 q :=
  funext fun a => Fin.ext (by match a with | ⟨0, _⟩ => rfl)

/-- The hidden layer: the stage after the second relu at (r, k). -/
theorem hidden_eq (x0 : (⟨S8192x978, .f32⟩ : BufTy).Contents (Elt Ideal)) (x1 : (⟨S2x20000000, .i32⟩ : BufTy).Contents (Elt Ideal))
    (x2 : (⟨S1x1, .f32⟩ : BufTy).Contents (Elt Ideal)) (x3 : (⟨S1, .f32⟩ : BufTy).Contents (Elt Ideal))
    (x4 : (⟨S978x2048, .f32⟩ : BufTy).Contents (Elt Ideal)) (x5 : (⟨S2048, .f32⟩ : BufTy).Contents (Elt Ideal))
    (r : Fin 8192) (k : Fin 2048) :
    val_main_v27 (F := Ideal) x0 x1 x2 x3 x4 x5 (ix2 r k)
      = Mlp.hidden (val_main_v21 (F := Ideal) x0 x1 x2 x3) x4 (fun k => x5 (ix1 k)) r k := by
  unfold Mlp.hidden
  rw [val_main_v27_apply, val_main_v26_apply, val_main_v23_apply, val_main_v25_apply, val_main_v24_apply,
    val_main_call1_v0_apply, val_main_call1_cst_apply, idx25_24]
  show max (_ + _) Mlp.zero = _
  refine congrArg (max · Mlp.zero) (congrArg (· + x5 (ix1 k)) (Finset.sum_congr rfl fun j _ => ?_))
  rw [lidx23, ridx23, val_main_v22_apply, val_main_call0_v0_apply, val_main_call0_cst_apply]
  rfl

/-- The reference's result is the two-layer function of the aggregated node values. -/
theorem result_eq (x0 : (⟨S8192x978, .f32⟩ : BufTy).Contents (Elt Ideal)) (x1 : (⟨S2x20000000, .i32⟩ : BufTy).Contents (Elt Ideal))
    (x2 : (⟨S1x1, .f32⟩ : BufTy).Contents (Elt Ideal)) (x3 : (⟨S1, .f32⟩ : BufTy).Contents (Elt Ideal))
    (x4 : (⟨S978x2048, .f32⟩ : BufTy).Contents (Elt Ideal)) (x5 : (⟨S2048, .f32⟩ : BufTy).Contents (Elt Ideal))
    (x6 : (⟨S2048x100, .f32⟩ : BufTy).Contents (Elt Ideal)) (x7 : (⟨S100, .f32⟩ : BufTy).Contents (Elt Ideal)) :
    val_main_v31 (F := Ideal) x0 x1 x2 x3 x4 x5 x6 x7
      = Mlp.out (val_main_v21 (F := Ideal) x0 x1 x2 x3) x4 (fun k => x5 (ix1 k)) x6 (fun q => x7 (ix1 q)) := by
  funext i
  obtain ⟨r, q, rfl⟩ : ∃ (r : Fin 8192) (q : Fin 100), i = ix2 r q := ⟨i 0, i 1, eq_ix2 i⟩
  show _ = Mlp.outAt (val_main_v21 (F := Ideal) x0 x1 x2 x3) x4 (fun k => x5 (ix1 k)) x6 (fun q => x7 (ix1 q)) r q
  unfold Mlp.outAt
  rw [val_main_v31_apply, val_main_v28_apply, val_main_v30_apply, val_main_v29_apply, idx30_29]
  refine congrArg (· + x7 (ix1 q)) (Finset.sum_congr rfl fun k _ => ?_)
  rw [lidx28, ridx28, hidden_eq]

end Cert.ReferenceIdeal.RefValue

end
-- ==== Proof.Bridge.lean ====
/-
  The kernel's arrays are the reference's.

  Before its one region the kernel's host code computes the aggregated node values by exactly the operations the
  reference uses (scale by the 1×1 weight, gather at the source node, scatter-add into the destination node, add the
  bias, reshape to [8192, 978]), and recasts the two bias vectors as rows. So the array the first window stages is the
  reference's stage `val_main_v21` of the kernel's own arguments, the two weight arrays are arguments, the bias rows are
  the bias vectors recast, and the output array after the kernel's run is the reference's result term of the same
  arguments. The aggregated array is only ever compared as a whole, never read at an index.
-/
import proofs.«157845_j22591527977028_1_alg».proof.Proof.KernelArray
import proofs.«157845_j22591527977028_1_alg».proof.Proof.RefValue

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

set_option maxHeartbeats 1000000 in
/-- The aggregated node values the kernel's host code leaves are the reference's stage of the same arguments. -/
theorem arr0_eq (c : Dev nD) :
    Whole.arr0 m c = Cert.ReferenceIdeal.Read.val_main_v21 (F := Ideal) (m ((c : Thread nD τ).loc main_arg0))
      (m ((c : Thread nD τ).loc main_arg1)) (m ((c : Thread nD τ).loc main_arg2)) (m ((c : Thread nD τ).loc main_arg3)) := by
  show V m c main_v21 = _
  dsimp only [V, hostOps0]
  after_results_simp <;> rfl

/-- The first layer's weights are the argument. -/
theorem arr1_eq (c : Dev nD) : Whole.arr1 m c = m ((c : Thread nD τ).loc main_arg4) := V_main_arg4 m c

/-- The first bias row is the bias vector recast as a row. -/
theorem arr2_eq (c : Dev nD) :
    Whole.arr2 m c = shapeCast S1x2048 (m ((c : Thread nD τ).loc main_arg5)) Facts₀.shapeCasts_S2048_S1x2048 := by
  show V m c main_v22 = _
  dsimp only [V, hostOps0]
  after_results_simp <;> rfl

/-- The second layer's weights are the argument. -/
theorem arr3_eq (c : Dev nD) : Whole.arr3 m c = m ((c : Thread nD τ).loc main_arg6) := V_main_arg6 m c

/-- The second bias row likewise. -/
theorem arr4_eq (c : Dev nD) :
    Whole.arr4 m c = shapeCast S1x100 (m ((c : Thread nD τ).loc main_arg7)) Facts₀.shapeCasts_S100_S1x100 := by
  show V m c main_v23 = _
  dsimp only [V, hostOps0]
  after_results_simp <;> rfl

/-- The kernel's output array is the reference's result term of the kernel's arguments. -/
theorem kernel_result (c : Dev nD) :
    Whole.result m c = Cert.ReferenceIdeal.Read.val_main_v31 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) :=
  (Whole.whole_congr (arr0_eq m c) (arr1_eq m c) (arr2_eq m c) (arr3_eq m c) (arr4_eq m c)).trans
    ((Whole.whole_rows _ _ _ _ _ _ _).trans (Cert.ReferenceIdeal.RefValue.result_eq _ _ _ _ _ _ _ _).symm)

end Cert.Bridge

end
-- ==== Proof.lean ====
/-
  The claim: the kernel (a host prelude that scales the node scalars by the 1×1 graph-convolution weight, gathers them
  at the edges' source nodes, scatter-adds them into the destination nodes and adds the bias, followed by one
  pallas_call that runs the two-layer perceptron head on blocks of 512 rows) against the jnp reference, over the
  extended reals.

  Both programs compute the aggregated node values by the same host operations, so that array is compared as a whole
  and never opened. From it both compute, at row r and column c,

      (∑ k, relu ((∑ j, relu (h r j) * W1 j k) + b1 k) * W2 k c) + b2 c.

  On the kernel's side the narrowing of the matrix unit's operands to bf16 is the identity at the ideal instance and a
  product into a zero accumulator is the plain sum; the sixteen grid points each write the block of rows they read, and
  the blocks tile the output. On the reference's side the two `dot_general`s are the same plain sums. No law of
  arithmetic beyond this reading is used, so the precondition is never opened. The ideal pass rewrote nothing, so
  `preserves` is trivial.
-/
import proofs.«157845_j22591527977028_1_alg».proof.Defs
import proofs.«157845_j22591527977028_1_alg».proof.Proof.Gen.Kernel
import proofs.«157845_j22591527977028_1_alg».proof.Proof.Gen.Kernel.Skeleton
import proofs.«157845_j22591527977028_1_alg».proof.Proof.Gen.Kernel.Launch
import proofs.«157845_j22591527977028_1_alg».proof.Proof.Gen.Kernel.Points
import proofs.«157845_j22591527977028_1_alg».proof.Proof.Gen.Kernel.Frame
import proofs.«157845_j22591527977028_1_alg».proof.Proof.Gen.KernelIdeal
import proofs.«157845_j22591527977028_1_alg».proof.Proof.Gen.KernelIdeal.Skeleton
import proofs.«157845_j22591527977028_1_alg».proof.Proof.Gen.KernelIdeal.Launch
import proofs.«157845_j22591527977028_1_alg».proof.Proof.Gen.KernelIdeal.Points
import proofs.«157845_j22591527977028_1_alg».proof.Proof.Gen.KernelIdeal.Frame
import proofs.«157845_j22591527977028_1_alg».proof.Proof.Gen.ReferenceIdeal
import proofs.«157845_j22591527977028_1_alg».proof.Proof.Gen.Pre_finite_inputs
import proofs.«157845_j22591527977028_1_alg».proof.Proof.Gen.KernelIdeal.Value
import proofs.«157845_j22591527977028_1_alg».proof.Proof.Gen.ReferenceIdeal.Run
import proofs.«157845_j22591527977028_1_alg».proof.Proof.Gen.ReferenceIdeal.Read
import proofs.«157845_j22591527977028_1_alg».proof.Proof.Bridge
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the kernel read at the ideal instance. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the output at the two-layer function of the aggregated node values of the same arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.kernel_result m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
